-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16 .f32) (main_arg6 : FVec F S16x32 .f32) (main_arg7 : FVec F S32 .f32) (main_arg8 : FVec F S32x1 .f32) (main_arg9 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) (main_arg6 : FVec F S16x32 .f32) (main_arg7 : FVec F S32 .f32) (main_arg8 : FVec F S32x1 .f32) (main_arg9 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S100000x16 : Shape := ⟨2, ![100000, 16]⟩
abbrev S5000x512 : Shape := ⟨2, ![5000, 512]⟩
abbrev S5000x16 : Shape := ⟨2, ![5000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S1x32 : Shape := ⟨2, ![1, 32]⟩
abbrev S1x1 : Shape := ⟨2, ![1, 1]⟩
abbrev S100000x1 : Shape := ⟨2, ![100000, 1]⟩
abbrev S10000x16 : Shape := ⟨2, ![10000, 16]⟩
abbrev S10000x1 : Shape := ⟨2, ![10000, 1]⟩
abbrev S10000x32 : Shape := ⟨2, ![10000, 32]⟩

abbrev nBuf : Space → Nat
  | .hbm => 74
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S100000x16, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000, .i32⟩
  | .hbm, ⟨16, _⟩ => ⟨S3300000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x16, .f32⟩
  | .hbm, ⟨62, _⟩ => ⟨S3300000x1, .f32⟩
  | .hbm, ⟨63, _⟩ => ⟨S3300000x16, .f32⟩
  | .hbm, ⟨64, _⟩ => ⟨S3300000x16, .f32⟩
  | .hbm, ⟨65, _⟩ => ⟨S_, .f32⟩
  | .hbm, ⟨66, _⟩ => ⟨S100000x16, .f32⟩
  | .hbm, ⟨67, _⟩ => ⟨S3300000x1, .i32⟩
  | .hbm, ⟨68, _⟩ => ⟨S100000x16, .f32⟩
  | .hbm, ⟨69, _⟩ => ⟨S1x16, .f32⟩
  | .hbm, ⟨70, _⟩ => ⟨S1x16, .f32⟩
  | .hbm, ⟨71, _⟩ => ⟨S1x32, .f32⟩
  | .hbm, ⟨72, _⟩ => ⟨S1x1, .f32⟩
  | .hbm, ⟨73, _⟩ => ⟨S100000x1, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S16x32, .f32⟩
  | .local _ .vmem, ⟨11, _⟩ => ⟨S1x32, .f32⟩
  | .local _ .vmem, ⟨12, _⟩ => ⟨S32x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S32_S1x32 : S32.ShapeCasts S1x32
  shapeCasts_S1_S1x1 : S1.ShapeCasts S1x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x32_S10000x32_1_0_0_1_n_n_wf : DotDims.WF S10000x16 S16x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x1.size a ≤ S100000x1.size a
  hwx1_8 : ∀ i : grid1.Coords, EltTy.bits .f32 = 32 ∨ (Rect.block (s := S100000x1) S10000x1.size (cc1_transform_8 i) (hinb1_8 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S10000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S100000x16, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x16, .f32⟩
  | .hbm, ⟨62, _⟩ => ⟨S3300000x1, .f32⟩
  | .hbm, ⟨63, _⟩ => ⟨S3300000x16, .f32⟩
  | .hbm, ⟨64, _⟩ => ⟨S3300000x16, .f32⟩
  | .hbm, ⟨65, _⟩ => ⟨S_, .f32⟩
  | .hbm, ⟨66, _⟩ => ⟨S100000x16, .f32⟩
  | .hbm, ⟨67, _⟩ => ⟨S3300000x1, .i32⟩
  | .hbm, ⟨68, _⟩ => ⟨S100000x16, .f32⟩
  | .hbm, ⟨69, _⟩ => ⟨S1x16, .f32⟩
  | .hbm, ⟨70, _⟩ => ⟨S100000x16, .f32⟩
  | .hbm, ⟨71, _⟩ => ⟨S100000x16, .f32⟩
  | .hbm, ⟨72, _⟩ => ⟨S_, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x16, .f32⟩
  | .hbm, ⟨79, _⟩ => ⟨S_, .f32⟩
  | .hbm, ⟨80, _⟩ => ⟨S100000x16, .f32⟩
  | .hbm, ⟨81, _⟩ => ⟨S100000x16, .f32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .hbm, ⟨86, _⟩ => ⟨S_, .f32⟩
  | .hbm, ⟨87, _⟩ => ⟨S100000x32, .f32⟩
  | .hbm, ⟨88, _⟩ => ⟨S100000x32, .f32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call3_cst : Ref sig .tc := ⟨.hbm, 86, rfl⟩
abbrev main_call3_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x32_S100000x32_1_0_0_1_n_n_wf : DotDims.WF S100000x16 S16x32 S100000x32 [1] [0] [0] [1] [] []
  dot_S100000x32_S32x1_S100000x1_1_0_0_1_n_n_wf : DotDims.WF S100000x32 S32x1 S100000x1 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Head.lean ====
/-
  The mathematics of the network's head, one node at a time.

  After the graph convolution a node carries sixteen aggregated features a. The head adds the convolution's bias,
  rectifies, and applies three dense layers (16 → 16 → 32 → 1), rectifying after the first two and squashing the
  last through the logistic function:

      out = σ( Σⱼ relu( Σᵢ relu( Σₗ relu(aₗ + bgₗ) · W1ₗᵢ + b1ᵢ ) · W2ᵢⱼ + b2ⱼ ) · W3ⱼ + b3 ).

  Over the extended reals every operation here is the exact one, the rectifier is the maximum with the value of the
  word +0.0, and σ z = 1 / (1 + e^(-z)) with the conventions of the library's exact division and exponential. Both
  programs compute this same expression for every node: one from a block of rows held on chip, the other from the
  whole arrays; nothing is re-associated, so no finiteness of the inputs is needed.
-/
import Idealize.ShloMosaic.Lib.ValueIdx
import Idealize.ShloMosaic.Lib.Pipeline.Value
import Idealize.ShloMosaic.PureOps.Ideal

noncomputable section

namespace Cert.Gcn

open Idealize.ShloMosaic Idealize.ShloMosaic.ValueIdx

/-- The rectifier's floor: the value of the word +0.0 (never evaluated: both programs spell the same word). -/
abbrev floorWord : EReal := Ideal.ofBits .f32 0x00000000#32

/-- The head of one node, from its aggregated features and the layers' weights and biases. -/
def head (a bg : Fin 16 → EReal) (W1 : Fin 16 → Fin 16 → EReal) (b1 : Fin 16 → EReal)
    (W2 : Fin 16 → Fin 32 → EReal) (b2 : Fin 32 → EReal) (W3 : Fin 32 → EReal) (b3 : EReal) : EReal :=
  Ideal.logistic
    ((∑ j : Fin 32, max ((∑ i : Fin 16, max ((∑ l : Fin 16, max (a l + bg l) floorWord * W1 l i) + b1 i) floorWord * W2 i j) + b2 j) floorWord * W3 j) + b3)

/-- The head of every node: row p of the result from row p of the aggregated features. -/
def headArr (agg : FVec Ideal ⟨2, ![100000, 16]⟩ .f32) (bg : Fin 16 → EReal) (W1 : Fin 16 → Fin 16 → EReal) (b1 : Fin 16 → EReal)
    (W2 : Fin 16 → Fin 32 → EReal) (b2 : Fin 32 → EReal) (W3 : Fin 32 → EReal) (b3 : EReal) : FVec Ideal ⟨2, ![100000, 1]⟩ .f32 :=
  fun i => head (fun l => agg (ix2 (⟨(i 0).val, idx2_lt0 i⟩ : Fin 100000) l)) bg W1 b1 W2 b2 W3 b3

theorem headArr_apply (agg : FVec Ideal ⟨2, ![100000, 16]⟩ .f32) (bg : Fin 16 → EReal) (W1 : Fin 16 → Fin 16 → EReal) (b1 : Fin 16 → EReal)
    (W2 : Fin 16 → Fin 32 → EReal) (b2 : Fin 32 → EReal) (W3 : Fin 32 → EReal) (b3 : EReal) (p : Fin 100000) (q : Fin 1) :
    headArr agg bg W1 b1 W2 b2 W3 b3 (ix2 p q) = head (fun l => agg (ix2 p l)) bg W1 b1 W2 b2 W3 b3 := rfl

/-- The feature projection of every node, x · Wg: entry (p, q) is the exact inner product of row p of x with column q of Wg. -/
def projArr (x : FVec Ideal ⟨2, ![100000, 512]⟩ .f32) (w : FVec Ideal ⟨2, ![512, 16]⟩ .f32) : FVec Ideal ⟨2, ![100000, 16]⟩ .f32 :=
  fun i => ∑ κ : Fin 512, x (ix2 (⟨(i 0).val, idx2_lt0 i⟩ : Fin 100000) κ) * w (ix2 κ (⟨(i 1).val, idx2_lt1 i⟩ : Fin 16))

theorem projArr_apply (x : FVec Ideal ⟨2, ![100000, 512]⟩ .f32) (w : FVec Ideal ⟨2, ![512, 16]⟩ .f32) (p : Fin 100000) (q : Fin 16) :
    projArr x w (ix2 p q) = ∑ κ : Fin 512, x (ix2 p κ) * w (ix2 κ q) := rfl

/-- The word of 1.0 denotes the real 1. -/
theorem ofBits_one : Ideal.ofBits .f32 0x3F800000#32 = 1 := by
  simp [Ideal.ofBits, Ideal.ieee, -EReal.coe_mul]; norm_num

/-- The logistic function spelt out with the words of 1.0, as a host program expands it, is the logistic function. -/
theorem logistic_spelt (z : EReal) :
    Ideal.div (Ideal.ofBits .f32 0x3F800000#32) (Ideal.ofBits .f32 0x3F800000#32 + Ideal.exp (-z)) = Ideal.logistic z := by
  rw [ofBits_one]; rfl

/-- A row vector [1, n] broadcast down m rows, read at (r, l), is the row's entry l. -/
theorem broadcastRow_apply {α : Type} {m n : ℕ} (b : (⟨2, ![1, n]⟩ : Shape).Idx → α)
    (h : (⟨2, ![1, n]⟩ : Shape).Broadcasts ⟨2, ![m, n]⟩) (r : Fin m) (l : Fin n) :
    broadcastTo ⟨2, ![m, n]⟩ b h (ix2 r l) = b (ix2 (⟨0, Nat.one_pos⟩ : Fin 1) l) := by
  refine broadcastTo_apply b h (ix2 r l) (ix2 (⟨0, Nat.one_pos⟩ : Fin 1) l) (fun a => ?_)
  match a with
  | ⟨0, _⟩ => show (0 : ℕ) = if (1 : ℕ) = 1 then 0 else _; rw [if_pos rfl]
  | ⟨1, _⟩ =>
    show l.val = if n = 1 then 0 else l.val
    split_ifs with hn
    · subst hn; exact Fin.val_eq_zero l
    · rfl

end Cert.Gcn

end
-- ==== Proof.RefValue.lean ====
/-
  The reference program read as mathematics. Its first operation is the whole product x · Wg; its operations up to
  the second scatter are the graph aggregation, one function of that product and of the edge list; the rest is the
  head of every node, spelt with whole-array operations: biases broadcast over all rows, three products, maxima with
  +0.0, and the logistic function written out as 1 / (1 + e^(-z)).
-/
import proofs.«169865_j38371237823055_1_alg».proof.Proof.RefRead
import proofs.«169865_j38371237823055_1_alg».proof.Proof.LibPlainDot
import proofs.«169865_j38371237823055_1_alg».proof.Proof.Head

noncomputable section

namespace Cert.ReferenceIdeal.RefValue

open Idealize.ShloMosaic Idealize.ShloMosaic.TcCoe Idealize.ShloMosaic.ValueIdx
open Cert.ReferenceIdeal Cert.ReferenceIdeal.Read Cert.Gcn

/-- The graph aggregation (the reference's operations up to its second scatter) as ONE function of the projected
    features and the edge list: normalised messages gathered along the edges and the self loops, summed per target. -/
def aggOf {F : FTy → Type} [FloatOps F] (xw : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3300000x1_S3300000x16_1_0_0_1 (val_main_v42 (F := F)) (val_main_v43 (F := F) e)
    (mulf (Host.gather gather_S100000x16_S3300000x1_S3300000x16_1_0_n_n_0_1_116 xw (val_main_v37 (F := F) e)) (val_main_v40 (F := F) e))

/-- The reference's aggregated features are that function of its product and the edge list. -/
theorem val_main_v44_eq {F : FTy → Type} [FloatOps F] (x0 : (⟨S100000x512, .f32⟩ : BufTy).Contents (Elt F)) (x1 : (⟨S2x3200000, .i32⟩ : BufTy).Contents (Elt F))
    (x2 : (⟨S512x16, .f32⟩ : BufTy).Contents (Elt F)) :
    val_main_v44 (F := F) x0 x1 x2 = aggOf (val_main_v0 (F := F) x0 x2) x1 := by
  unfold val_main_v44 val_main_v41 val_main_v38 aggOf
  rfl

/-- The reference's product is x · Wg entry by entry. -/
theorem val_main_v0_eq (x0 : (⟨S100000x512, .f32⟩ : BufTy).Contents (Elt Ideal)) (x2 : (⟨S512x16, .f32⟩ : BufTy).Contents (Elt Ideal)) :
    val_main_v0 (F := Ideal) x0 x2 = projArr x0 x2 := by
  funext i
  obtain ⟨p, q, rfl⟩ : ∃ (p : Fin 100000) (q : Fin 16), i = ix2 p q := ⟨i 0, i 1, eq_ix2 i⟩
  rw [val_main_v0_apply, projArr_apply]
  refine Finset.sum_congr rfl fun k _ => ?_
  have el : lidx_main_v0 (ix2 p q) k = ix2 p k := funext fun a => Fin.ext (by
    match a with
    | ⟨0, _⟩ => rfl
    | ⟨1, _⟩ => rfl)
  have er : ridx_main_v0 (ix2 p q) k = ix2 k q := funext fun a => Fin.ext (by
    match a with
    | ⟨0, _⟩ => rfl
    | ⟨1, _⟩ => rfl)
  rw [el, er]

/-- The biased, rectified features at (p, l): the aggregated feature plus the bias entry l, floored at the word +0.0. -/
theorem v48_at (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (p : Fin 100000) (l : Fin 16) :
    (val_main_v48 (F := Ideal) x0 x1 x2 x3 : S100000x16.Idx → EReal) (ix2 p l)
      = max ((val_main_v44 (F := Ideal) x0 x1 x2 : S100000x16.Idx → EReal) (ix2 p l) + (x3 : S16.Idx → EReal) (ix1 l)) floorWord := by
  rw [val_main_v48_apply, val_main_v47_apply, val_main_v46_apply, val_main_v45_apply, val_main_call1_v0_apply,
    val_main_call1_cst_apply]
  have e : idx_main_v45 (idx_main_v46 (ix2 p l)) = ix1 l := funext fun a => Fin.ext (by
    match a with
    | ⟨0, _⟩ => rfl)
  rw [e]
  rfl

/-- The first dense layer at (p, i): the inner product of row p with column i of W1, plus b1 i, floored. -/
theorem v53_at (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (p : Fin 100000) (i : Fin 16) :
    (val_main_v53 (F := Ideal) x0 x1 x2 x3 x4 x5 : S100000x16.Idx → EReal) (ix2 p i)
      = max ((∑ l : Fin 16, (val_main_v48 (F := Ideal) x0 x1 x2 x3 : S100000x16.Idx → EReal) (ix2 p l) * (x4 : S16x16.Idx → EReal) (ix2 l i))
          + (x5 : S16.Idx → EReal) (ix1 i)) floorWord := by
  rw [val_main_v53_apply, val_main_v52_apply, val_main_v49_apply, val_main_v51_apply, val_main_v50_apply,
    val_main_call2_v0_apply, val_main_call2_cst_apply]
  have e : idx_main_v50 (idx_main_v51 (ix2 p i)) = ix1 i := funext fun a => Fin.ext (by
    match a with
    | ⟨0, _⟩ => rfl)
  have el : ∀ k : Fin 16, lidx_main_v49 (ix2 p i) k = ix2 p k := fun k => funext fun a => Fin.ext (by
    match a with
    | ⟨0, _⟩ => rfl
    | ⟨1, _⟩ => rfl)
  have er : ∀ k : Fin 16, ridx_main_v49 (ix2 p i) k = ix2 k i := fun k => funext fun a => Fin.ext (by
    match a with
    | ⟨0, _⟩ => rfl
    | ⟨1, _⟩ => rfl)
  rw [e]
  simp only [el, er]
  rfl

/-- The second dense layer at (p, j): the inner product of row p with column j of W2, plus b2 j, floored. -/
theorem v58_at (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x32, .f32⟩ : BufTy).Contents (Elt Ideal)) (x7 : (⟨S32, .f32⟩ : BufTy).Contents (Elt Ideal))
    (p : Fin 100000) (j : Fin 32) :
    (val_main_v58 (F := Ideal) x0 x1 x2 x3 x4 x5 x6 x7 : S100000x32.Idx → EReal) (ix2 p j)
      = max ((∑ i : Fin 16, (val_main_v53 (F := Ideal) x0 x1 x2 x3 x4 x5 : S100000x16.Idx → EReal) (ix2 p i) * (x6 : S16x32.Idx → EReal) (ix2 i j))
          + (x7 : S32.Idx → EReal) (ix1 j)) floorWord := by
  rw [val_main_v58_apply, val_main_v57_apply, val_main_v54_apply, val_main_v56_apply, val_main_v55_apply,
    val_main_call3_v0_apply, val_main_call3_cst_apply]
  have e : idx_main_v55 (idx_main_v56 (ix2 p j)) = ix1 j := funext fun a => Fin.ext (by
    match a with
    | ⟨0, _⟩ => rfl)
  have el : ∀ k : Fin 16, lidx_main_v54 (ix2 p j) k = ix2 p k := fun k => funext fun a => Fin.ext (by
    match a with
    | ⟨0, _⟩ => rfl
    | ⟨1, _⟩ => rfl)
  have er : ∀ k : Fin 16, ridx_main_v54 (ix2 p j) k = ix2 k j := fun k => funext fun a => Fin.ext (by
    match a with
    | ⟨0, _⟩ => rfl
    | ⟨1, _⟩ => rfl)
  rw [e]
  simp only [el, er]
  rfl

/-- The last dense layer at (p, q): the inner product of row p with the single column of W3, plus b3. -/
theorem v62_at (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x32, .f32⟩ : BufTy).Contents (Elt Ideal)) (x7 : (⟨S32, .f32⟩ : BufTy).Contents (Elt Ideal))
    (x8 : (⟨S32x1, .f32⟩ : BufTy).Contents (Elt Ideal)) (x9 : (⟨S1, .f32⟩ : BufTy).Contents (Elt Ideal))
    (p : Fin 100000) (q : Fin 1) :
    (val_main_v62 (F := Ideal) x0 x1 x2 x3 x4 x5 x6 x7 x8 x9 : S100000x1.Idx → EReal) (ix2 p q)
      = (∑ j : Fin 32, (val_main_v58 (F := Ideal) x0 x1 x2 x3 x4 x5 x6 x7 : S100000x32.Idx → EReal) (ix2 p j) * (x8 : S32x1.Idx → EReal) (ix2 j q))
          + (x9 : S1.Idx → EReal) (ix1 (⟨0, Nat.one_pos⟩ : Fin 1)) := by
  rw [val_main_v62_apply, val_main_v59_apply, val_main_v61_apply, val_main_v60_apply]
  have e : idx_main_v60 (idx_main_v61 (ix2 p q)) = ix1 (⟨0, Nat.one_pos⟩ : Fin 1) := funext fun a => Fin.ext (by
    match a with
    | ⟨0, _⟩ => rfl)
  have el : ∀ k : Fin 32, lidx_main_v59 (ix2 p q) k = ix2 p k := fun k => funext fun a => Fin.ext (by
    match a with
    | ⟨0, _⟩ => rfl
    | ⟨1, _⟩ => rfl)
  have er : ∀ k : Fin 32, ridx_main_v59 (ix2 p q) k = ix2 k q := fun k => funext fun a => Fin.ext (by
    match a with
    | ⟨0, _⟩ => rfl
    | ⟨1, _⟩ => rfl)
  rw [e]
  simp only [el, er]
  rfl

/-- The result at an index: 1 / (1 + e^(-z)) of the last layer's value z there, the two ones being the word of 1.0. -/
theorem v68_at (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x32, .f32⟩ : BufTy).Contents (Elt Ideal)) (x7 : (⟨S32, .f32⟩ : BufTy).Contents (Elt Ideal))
    (x8 : (⟨S32x1, .f32⟩ : BufTy).Contents (Elt Ideal)) (x9 : (⟨S1, .f32⟩ : BufTy).Contents (Elt Ideal))
    (i : S100000x1.Idx) :
    (val_main_v68 (F := Ideal) x0 x1 x2 x3 x4 x5 x6 x7 x8 x9 : S100000x1.Idx → EReal) i
      = Ideal.logistic ((val_main_v62 (F := Ideal) x0 x1 x2 x3 x4 x5 x6 x7 x8 x9 : S100000x1.Idx → EReal) i) := by
  rw [val_main_v68_apply, val_main_v67_apply, val_main_cst_11_apply, val_main_v66_apply, val_main_v65_apply,
    val_main_cst_10_apply, val_main_v64_apply, val_main_v63_apply, ← logistic_spelt,
    Ideal.hostDivf_def, Ideal.addf_def, Ideal.hostUnary_exp_def, Ideal.hostNegf_def, Ideal.negf_def, Ideal.ofBits_def]

/-- The reference's result is the head of every node, of its aggregated features and the weights and biases. -/
theorem result_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x32, .f32⟩ : BufTy).Contents (Elt Ideal)) (x7 : (⟨S32, .f32⟩ : BufTy).Contents (Elt Ideal))
    (x8 : (⟨S32x1, .f32⟩ : BufTy).Contents (Elt Ideal)) (x9 : (⟨S1, .f32⟩ : BufTy).Contents (Elt Ideal)) :
    val_main_v68 (F := Ideal) x0 x1 x2 x3 x4 x5 x6 x7 x8 x9
      = headArr (val_main_v44 (F := Ideal) x0 x1 x2)
          (fun l => (x3 : S16.Idx → EReal) (ix1 l))
          (fun l i => (x4 : S16x16.Idx → EReal) (ix2 l i))
          (fun i => (x5 : S16.Idx → EReal) (ix1 i))
          (fun i j => (x6 : S16x32.Idx → EReal) (ix2 i j))
          (fun j => (x7 : S32.Idx → EReal) (ix1 j))
          (fun j => (x8 : S32x1.Idx → EReal) (ix2 j (⟨0, Nat.one_pos⟩ : Fin 1)))
          ((x9 : S1.Idx → EReal) (ix1 (⟨0, Nat.one_pos⟩ : Fin 1))) := by
  funext i
  obtain ⟨p, q, rfl⟩ : ∃ (p : Fin 100000) (q : Fin 1), i = ix2 p q := ⟨i 0, i 1, eq_ix2 i⟩
  obtain rfl : q = (⟨0, Nat.one_pos⟩ : Fin 1) := Subsingleton.elim _ _
  rw [headArr_apply]
  unfold head
  refine (v68_at x0 x1 x2 x3 x4 x5 x6 x7 x8 x9 _).trans ?_
  rw [v62_at]
  simp only [v58_at, v53_at, v48_at]

end Cert.ReferenceIdeal.RefValue

end
-- ==== Proof.Net.lean ====
/-
  The whole network as ONE function of its ten arguments, over the extended reals:

      out = head of every node of  agg( x · Wg, edges ),

  the feature projection, the graph aggregation along the edge list, and the per-node head with its weights and
  biases. The reference program's result is this function of its arguments, operation by operation.
-/
import proofs.«169865_j38371237823055_1_alg».proof.Proof.RefValue

noncomputable section

namespace Cert.Gcn

open Idealize.ShloMosaic Idealize.ShloMosaic.TcCoe Idealize.ShloMosaic.ValueIdx Idealize.SL.Sem
open Cert.ReferenceIdeal Cert.ReferenceIdeal.Read

/-- The network's output from its arguments. -/
def net (x : (⟨S100000x512, .f32⟩ : BufTy).Contents (Elt Ideal)) (e : (⟨S2x3200000, .i32⟩ : BufTy).Contents (Elt Ideal)) (Wg : (⟨S512x16, .f32⟩ : BufTy).Contents (Elt Ideal))
    (bg : (⟨S16, .f32⟩ : BufTy).Contents (Elt Ideal)) (W1 : (⟨S16x16, .f32⟩ : BufTy).Contents (Elt Ideal)) (b1 : (⟨S16, .f32⟩ : BufTy).Contents (Elt Ideal)) (W2 : (⟨S16x32, .f32⟩ : BufTy).Contents (Elt Ideal)) (b2 : (⟨S32, .f32⟩ : BufTy).Contents (Elt Ideal))
    (W3 : (⟨S32x1, .f32⟩ : BufTy).Contents (Elt Ideal)) (b3 : (⟨S1, .f32⟩ : BufTy).Contents (Elt Ideal)) : FVec Ideal ⟨2, ![100000, 1]⟩ .f32 :=
  headArr (Cert.ReferenceIdeal.RefValue.aggOf (F := Ideal) (projArr x Wg) e)
    (fun l => (bg : S16.Idx → EReal) (ix1 l))
    (fun l i => (W1 : S16x16.Idx → EReal) (ix2 l i))
    (fun i => (b1 : S16.Idx → EReal) (ix1 i))
    (fun i j => (W2 : S16x32.Idx → EReal) (ix2 i j))
    (fun j => (b2 : S32.Idx → EReal) (ix1 j))
    (fun j => (W3 : S32x1.Idx → EReal) (ix2 j (⟨0, Nat.one_pos⟩ : Fin 1)))
    ((b3 : S1.Idx → EReal) (ix1 (⟨0, Nat.one_pos⟩ : Fin 1)))

/-- The reference's result, as its run states it, is the network's output of the launch contents of its arguments. -/
theorem ref_value (m : (ℓ : Loc nD τ sig) → Buf (Elt Ideal) ℓ) (c : Dev nD) :
    Cert.ReferenceIdeal.Value.res_main_v68 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  rw [val_main_v68_eq, Cert.ReferenceIdeal.RefValue.result_eq, Cert.ReferenceIdeal.RefValue.val_main_v44_eq, Cert.ReferenceIdeal.RefValue.val_main_v0_eq]
  rfl

end Cert.Gcn

end
-- ==== Proof.KernelHost.lean ====
/-
  The host operations between the two kernel regions, read as values.

  From the edge list they build the source and target index vectors (each edge list row followed by the self loops
  0 … 99999), count each node's degree by a scatter of ones, take degree^(-1/2) where the degree is positive, gather
  the two normalisers along the edges, scale the projected features gathered at the sources, and sum the messages per
  target. These are, operation by operation, the reference's own graph aggregation: the same function of the projected
  features and the edge list. They also reshape the four bias vectors into one-row matrices and leave the weights alone.
-/
import proofs.«169865_j38371237823055_1_alg».proof.Proof.Gen.KernelIdeal.Frame
import proofs.«169865_j38371237823055_1_alg».proof.Proof.RefValue
import Idealize.ShloMosaic.Lib.StableHlo.Run
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The edge list as the first region leaves it. -/
abbrev edges (c : Dev nD) := W1 m ρ c (Proc.devRef .tc main_arg1)

/-! ## The first stretch: the index vectors, the degrees, the candidates for the normaliser -/

/-- The source indices: the edge list's first row, then the self loops. -/
theorem W2_row (c : Dev nD) : W2 m ρ c (Proc.devRef .tc main_v6) = Cert.ReferenceIdeal.Read.val_main_v4 (F := F) (edges m ρ c) := by
  show StableHlo.after hostOps1 (W1 m ρ c) (Proc.devRef .tc main_v6) = _
  after_results
  rfl

/-- The target indices: the edge list's second row, then the self loops. -/
theorem W2_col (c : Dev nD) : W2 m ρ c (Proc.devRef .tc main_v7) = Cert.ReferenceIdeal.Read.val_main_v7 (F := F) (edges m ρ c) := by
  show StableHlo.after hostOps1 (W1 m ρ c) (Proc.devRef .tc main_v7) = _
  after_results
  rfl

/-- Where the degree is positive. -/
theorem W2_pos (c : Dev nD) : W2 m ρ c (Proc.devRef .tc main_v13) = Cert.ReferenceIdeal.Read.val_main_v13 (F := F) (edges m ρ c) := by
  show StableHlo.after hostOps1 (W1 m ρ c) (Proc.devRef .tc main_v13) = _
  after_results
  rfl

/-- The degree to the power -1/2. -/
theorem W2_pow (c : Dev nD) : W2 m ρ c (Proc.devRef .tc main_v15) = Cert.ReferenceIdeal.Read.val_main_v15 (F := F) (edges m ρ c) := by
  show StableHlo.after hostOps1 (W1 m ρ c) (Proc.devRef .tc main_v15) = _
  after_results
  rfl

/-- The value taken where the degree is not positive. -/
theorem W2_else (c : Dev nD) : W2 m ρ c (Proc.devRef .tc main_cst_3) = Cert.ReferenceIdeal.Read.val_main_cst_3 (F := F) := by
  show StableHlo.after hostOps1 (W1 m ρ c) (Proc.devRef .tc main_cst_3) = _
  after_results
  rfl

/-- The first stretch leaves the projected features alone. -/
theorem W2_xw (c : Dev nD) : W2 m ρ c (Proc.devRef .tc main_v0) = W1 m ρ c (Proc.devRef .tc main_v0) := by
  show StableHlo.after hostOps1 (W1 m ρ c) (Proc.devRef .tc main_v0) = _
  after_results

/-- The first stretch leaves the edge list alone. -/
theorem W2_edges (c : Dev nD) : W2 m ρ c (Proc.devRef .tc main_arg1) = edges m ρ c := by
  show StableHlo.after hostOps1 (W1 m ρ c) (Proc.devRef .tc main_arg1) = _
  after_results

/-! ## The second stretch: the normaliser, degree^(-1/2) where the degree is positive and 0 elsewhere -/

theorem W3_dinv (c : Dev nD) : W3 m ρ c (Proc.devRef .tc main_v16) = Cert.ReferenceIdeal.Read.val_main_v16 (F := F) (edges m ρ c) := by
  have h13 := W2_pos m ρ c
  have h15 := W2_pow m ρ c
  have h3 := W2_else m ρ c
  show StableHlo.after hostOps1_1 (W2 m ρ c) (Proc.devRef .tc main_v16) = _
  generalize W2 m ρ c = Z at *
  after_results
  rw [h13, h15, h3]
  rfl

theorem W3_row (c : Dev nD) : W3 m ρ c (Proc.devRef .tc main_v6) = Cert.ReferenceIdeal.Read.val_main_v4 (F := F) (edges m ρ c) := by
  rw [← W2_row m ρ c]
  show StableHlo.after hostOps1_1 (W2 m ρ c) (Proc.devRef .tc main_v6) = _
  generalize W2 m ρ c = Z
  after_results

theorem W3_col (c : Dev nD) : W3 m ρ c (Proc.devRef .tc main_v7) = Cert.ReferenceIdeal.Read.val_main_v7 (F := F) (edges m ρ c) := by
  rw [← W2_col m ρ c]
  show StableHlo.after hostOps1_1 (W2 m ρ c) (Proc.devRef .tc main_v7) = _
  generalize W2 m ρ c = Z
  after_results

theorem W3_xw (c : Dev nD) : W3 m ρ c (Proc.devRef .tc main_v0) = W1 m ρ c (Proc.devRef .tc main_v0) := by
  rw [← W2_xw m ρ c]
  show StableHlo.after hostOps1_1 (W2 m ρ c) (Proc.devRef .tc main_v0) = _
  generalize W2 m ρ c = Z
  after_results

/-! ## The third stretch: the messages, summed per target -/

set_option maxHeartbeats 4000000 in
/-- What the second region finds as aggregated features is the reference's aggregation of what the first region
    left as projected features, along the same edge list. -/
theorem W4_agg (c : Dev nD) :
    W4 m ρ c (Proc.devRef .tc main_v44) = Cert.ReferenceIdeal.RefValue.aggOf (F := F) (W1 m ρ c (Proc.devRef .tc main_v0)) (edges m ρ c) := by
  have h6 := W3_row m ρ c
  have h7 := W3_col m ρ c
  have h16 := W3_dinv m ρ c
  have h0 := W3_xw m ρ c
  show StableHlo.after hostOps1_2 (W3 m ρ c) (Proc.devRef .tc main_v44) = _
  generalize W3 m ρ c = Y at *
  after_results_simp
  rw [h6, h7, h16, h0]
  rfl

/-! ## The second region's small operands: the biases as one-row matrices, the weights as launched -/

theorem W3_arg3 (c : Dev nD) : W3 m ρ c (Proc.devRef .tc main_arg3) = (m ((c : Thread nD τ).loc main_arg3)) := by
  show StableHlo.after hostOps1_1 (StableHlo.after hostOps1 (W1 m ρ c)) (Proc.devRef .tc main_arg3) = _
  after_results
  exact W1_of_ne m ρ c main_arg3 (by decide)

theorem W3_arg5 (c : Dev nD) : W3 m ρ c (Proc.devRef .tc main_arg5) = (m ((c : Thread nD τ).loc main_arg5)) := by
  show StableHlo.after hostOps1_1 (StableHlo.after hostOps1 (W1 m ρ c)) (Proc.devRef .tc main_arg5) = _
  after_results
  exact W1_of_ne m ρ c main_arg5 (by decide)

theorem W3_arg7 (c : Dev nD) : W3 m ρ c (Proc.devRef .tc main_arg7) = (m ((c : Thread nD τ).loc main_arg7)) := by
  show StableHlo.after hostOps1_1 (StableHlo.after hostOps1 (W1 m ρ c)) (Proc.devRef .tc main_arg7) = _
  after_results
  exact W1_of_ne m ρ c main_arg7 (by decide)

theorem W3_arg9 (c : Dev nD) : W3 m ρ c (Proc.devRef .tc main_arg9) = (m ((c : Thread nD τ).loc main_arg9)) := by
  show StableHlo.after hostOps1_1 (StableHlo.after hostOps1 (W1 m ρ c)) (Proc.devRef .tc main_arg9) = _
  after_results
  exact W1_of_ne m ρ c main_arg9 (by decide)

/-- The convolution's bias as a one-row matrix: entry (0, l) is the bias vector's entry l. -/
theorem V4_bg (c : Dev nD) (l : Fin 16) :
    (V4 m ρ c main_v45 : S1x16.Idx → Elt F .f32) (ix2 (⟨0, Nat.one_pos⟩ : Fin 1) l) = ((m ((c : Thread nD τ).loc main_arg3)) : S16.Idx → Elt F .f32) (ix1 l) := by
  have h := W3_arg3 m ρ c
  show StableHlo.after hostOps1_2 (W3 m ρ c) (Proc.devRef .tc main_v45) _ = _
  generalize W3 m ρ c = Y at *
  after_results_simp
  rw [h]
  refine shapeCast_apply _ _ _ (ix1 l) ?_
  show (S16.rowMajor (ix1 l)).val = (S1x16.rowMajor (ix2 (⟨0, Nat.one_pos⟩ : Fin 1) l)).val
  rw [Shape.rowMajor_val_one, Shape.rowMajor_val_two]
  show l.val = 0 * 16 + l.val
  omega

/-- The first layer's bias as a one-row matrix. -/
theorem V4_b1 (c : Dev nD) (l : Fin 16) :
    (V4 m ρ c main_v46 : S1x16.Idx → Elt F .f32) (ix2 (⟨0, Nat.one_pos⟩ : Fin 1) l) = ((m ((c : Thread nD τ).loc main_arg5)) : S16.Idx → Elt F .f32) (ix1 l) := by
  have h := W3_arg5 m ρ c
  show StableHlo.after hostOps1_2 (W3 m ρ c) (Proc.devRef .tc main_v46) _ = _
  generalize W3 m ρ c = Y at *
  after_results_simp
  rw [h]
  refine shapeCast_apply _ _ _ (ix1 l) ?_
  show (S16.rowMajor (ix1 l)).val = (S1x16.rowMajor (ix2 (⟨0, Nat.one_pos⟩ : Fin 1) l)).val
  rw [Shape.rowMajor_val_one, Shape.rowMajor_val_two]
  show l.val = 0 * 16 + l.val
  omega

/-- The second layer's bias as a one-row matrix. -/
theorem V4_b2 (c : Dev nD) (l : Fin 32) :
    (V4 m ρ c main_v47 : S1x32.Idx → Elt F .f32) (ix2 (⟨0, Nat.one_pos⟩ : Fin 1) l) = ((m ((c : Thread nD τ).loc main_arg7)) : S32.Idx → Elt F .f32) (ix1 l) := by
  have h := W3_arg7 m ρ c
  show StableHlo.after hostOps1_2 (W3 m ρ c) (Proc.devRef .tc main_v47) _ = _
  generalize W3 m ρ c = Y at *
  after_results_simp
  rw [h]
  refine shapeCast_apply _ _ _ (ix1 l) ?_
  show (S32.rowMajor (ix1 l)).val = (S1x32.rowMajor (ix2 (⟨0, Nat.one_pos⟩ : Fin 1) l)).val
  rw [Shape.rowMajor_val_one, Shape.rowMajor_val_two]
  show l.val = 0 * 32 + l.val
  omega

/-- The last layer's bias as a one-by-one matrix. -/
theorem V4_b3 (c : Dev nD) (l : Fin 1) :
    (V4 m ρ c main_v48 : S1x1.Idx → Elt F .f32) (ix2 (⟨0, Nat.one_pos⟩ : Fin 1) l) = ((m ((c : Thread nD τ).loc main_arg9)) : S1.Idx → Elt F .f32) (ix1 l) := by
  have h := W3_arg9 m ρ c
  show StableHlo.after hostOps1_2 (W3 m ρ c) (Proc.devRef .tc main_v48) _ = _
  generalize W3 m ρ c = Y at *
  after_results_simp
  rw [h]
  refine shapeCast_apply _ _ _ (ix1 l) ?_
  show (S1.rowMajor (ix1 l)).val = (S1x1.rowMajor (ix2 (⟨0, Nat.one_pos⟩ : Fin 1) l)).val
  rw [Shape.rowMajor_val_one, Shape.rowMajor_val_two]
  show l.val = 0 * 1 + l.val
  omega

/-- The weight matrices reach the second region as launched. -/
theorem V4_W1 (c : Dev nD) : V4 m ρ c main_arg4 = (m ((c : Thread nD τ).loc main_arg4)) :=
  ((W5_arr m ρ c 2).trans (((dat1 (V4 m ρ) c).arrAt_in 2 rfl _).trans (A_eq1 (V4 m ρ) c 2))).symm.trans (W5_main_arg4 m ρ c)
theorem V4_W2 (c : Dev nD) : V4 m ρ c main_arg6 = (m ((c : Thread nD τ).loc main_arg6)) :=
  ((W5_arr m ρ c 4).trans (((dat1 (V4 m ρ) c).arrAt_in 4 rfl _).trans (A_eq1 (V4 m ρ) c 4))).symm.trans (W5_main_arg6 m ρ c)
theorem V4_W3 (c : Dev nD) : V4 m ρ c main_arg8 = (m ((c : Thread nD τ).loc main_arg8)) :=
  ((W5_arr m ρ c 6).trans (((dat1 (V4 m ρ) c).arrAt_in 6 rfl _).trans (A_eq1 (V4 m ρ) c 6))).symm.trans (W5_main_arg8 m ρ c)

/-- The edge list reaches the host operations as launched. -/
theorem edges_eq (c : Dev nD) : edges m ρ c = (m ((c : Thread nD τ).loc main_arg1)) :=
  W1_of_ne m ρ c main_arg1 (by decide)

end Cert.KernelIdeal.Host

end
-- ==== Proof.KernelBody.lean ====
/-
  What the two kernel bodies compute on one block, entry by entry, over the extended reals.

  The projection body multiplies a block of 5000 rows of x by the whole weight matrix Wg; the narrowing of both
  operands to bf16 is the identity here, and the product into a zero accumulator is the exact sum over the 512
  contracted positions:  (x · Wg)(r, q) = Σ_κ x(r, κ) · Wg(κ, q).

  The head body works on a block of 10000 rows of aggregated features. Each of its steps acts row by row — a bias
  row broadcast down the block and added, a maximum with +0.0, a product with a small weight matrix, the logistic
  function — so row r of its result is the head of that one node (Head.lean's `head`) of row r of the block.
-/
import proofs.«169865_j38371237823055_1_alg».proof.Proof.Gen.KernelIdeal.Skeleton
import proofs.«169865_j38371237823055_1_alg».proof.Proof.LibPlainDot
import proofs.«169865_j38371237823055_1_alg».proof.Proof.Head
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.Gcn

/-- The four products of the program are plain matrix products. -/
theorem plain_proj : Cert.PlainDot.Plain dot_S5000x512_S512x16_S5000x16_1_0_0_1_n_n := ⟨rfl, rfl, rfl, rfl, rfl, rfl⟩
theorem plain_l1 : Cert.PlainDot.Plain dot_S10000x16_S16x16_S10000x16_1_0_0_1_n_n := ⟨rfl, rfl, rfl, rfl, rfl, rfl⟩
theorem plain_l2 : Cert.PlainDot.Plain dot_S10000x16_S16x32_S10000x32_1_0_0_1_n_n := ⟨rfl, rfl, rfl, rfl, rfl, rfl⟩
theorem plain_l3 : Cert.PlainDot.Plain dot_S10000x32_S32x1_S10000x1_1_0_0_1_n_n := ⟨rfl, rfl, rfl, rfl, rfl, rfl⟩

/-- The projection body at an entry: the exact inner product of a row of the block with a column of the weights. -/
theorem proj_pay_apply (x : Vec Ideal S5000x512 .f32) (w : Vec Ideal S512x16 .f32) (r : Fin 5000) (q : Fin 16) :
    k0_pay1 (F := Ideal) x w (ix2 r q) = ∑ κ : Fin 512, x (ix2 r κ) * w (ix2 κ q) := by
  unfold k0_pay1
  exact Cert.PlainDot.matmul_zero_apply (a := 5000) (k := 512) (b := 16) plain_proj rfl rfl none _ _ r q

/-- The logistic function on a vector acts entry by entry. -/
theorem logistic_apply {s : Shape} {φ : FTy} (a : FVec Ideal s φ) (i : s.Idx) : logistic a i = Ideal.logistic (a i) := rfl

/-- A literal scalar is the value of its word. -/
theorem scalar_ofBits (φ : FTy) (b : BitVec φ.bits) : Scalar.ofBits (F := Ideal) φ b = Ideal.ofBits φ b := rfl

/-- The head body at row r of its block is the head of that one node. -/
theorem head_pay_apply (x0 : Vec Ideal S10000x16 .f32) (x1 : Vec Ideal S1x16 .f32) (x2 : Vec Ideal S16x16 .f32)
    (x3 : Vec Ideal S1x16 .f32) (x4 : Vec Ideal S16x32 .f32) (x5 : Vec Ideal S1x32 .f32) (x6 : Vec Ideal S32x1 .f32)
    (x7 : Vec Ideal S1x1 .f32) (r : Fin 10000) :
    k1_pay1 (F := Ideal) x0 x1 x2 x3 x4 x5 x6 x7 (ix2 r (⟨0, Nat.one_pos⟩ : Fin 1)) =
      head (fun l => x0 (ix2 r l)) (fun l => x1 (ix2 (⟨0, Nat.one_pos⟩ : Fin 1) l)) (fun l i => x2 (ix2 l i))
        (fun i => x3 (ix2 (⟨0, Nat.one_pos⟩ : Fin 1) i)) (fun i j => x4 (ix2 i j)) (fun j => x5 (ix2 (⟨0, Nat.one_pos⟩ : Fin 1) j))
        (fun j => x6 (ix2 j (⟨0, Nat.one_pos⟩ : Fin 1))) (x7 (ix2 (⟨0, Nat.one_pos⟩ : Fin 1) (⟨0, Nat.one_pos⟩ : Fin 1))) := by
  unfold k1_pay1 head
  simp only [shapeCast_self, logistic_apply, addf_apply, maximumf_apply, broadcast_apply, scalar_ofBits,
    broadcastRow_apply,
    Cert.PlainDot.matmul_zero_apply (a := 10000) (k := 16) (b := 16) plain_l1 rfl rfl,
    Cert.PlainDot.matmul_zero_apply (a := 10000) (k := 16) (b := 32) plain_l2 rfl rfl,
    Cert.PlainDot.matmul_zero_apply (a := 10000) (k := 32) (b := 1) plain_l3 rfl rfl]

end Cert.KernelIdeal.Body

end
-- ==== Proof.KernelProjArr.lean ====
/-
  The first kernel region as a whole: after its twenty grid points the array it writes holds the feature
  projection x · Wg of every node. Point t multiplies rows 5000·t … 5000·t + 4999 of x by the whole of Wg and
  writes rows 5000·t … of the result; the twenty row blocks tile the 100000 rows.
-/
import proofs.«169865_j38371237823055_1_alg».proof.Proof.Gen.KernelIdeal.Frame
import proofs.«169865_j38371237823055_1_alg».proof.Proof.KernelBody
import Idealize.ShloMosaic.Lib.Pipeline.Value

set_option maxRecDepth 16384

noncomputable section

namespace Cert.KernelIdeal.ProjArr

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- Both offsets of a whole-buffer access are zero. -/
theorem hz : (![0, 0] : Fin 2 → Nat) = fun _ => 0 := funext fun a => by fin_cases a <;> rfl

/-- The block indices at every grid point: x and the result move down the rows with the point, block (t, 0);
    Wg stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 5000·t … 5000·t + 4999 of x. -/
theorem xblk_apply (c : Dev nD) (t : Fin cfg0.N) (r : Fin 5000) (κ : Fin 512) (p : Fin 100000)
    (hp : p.val = 5000 * t.val + r.val) :
    (iblk0 V c 0 t : Vec Ideal S5000x512 .f32) (ix2 r κ)
      = (V c main_arg0 : FVec Ideal ⟨2, ![100000, 512]⟩ .f32) (ix2 p κ) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * r.val = p.val; rw [e0, hp]; omega
  | ⟨1, _⟩ => show win0_0.index t 1 * 512 + 1 * κ.val = κ.val; rw [e1]; omega

/-- Window 1's block at every point is the whole of Wg. -/
theorem wblk_apply (c : Dev nD) (t : Fin cfg0.N) (κ : Fin 512) (q : Fin 16) :
    (iblk0 V c 1 t : Vec Ideal S512x16 .f32) (ix2 κ q)
      = (V c main_arg2 : FVec Ideal ⟨2, ![512, 16]⟩ .f32) (ix2 κ q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 512 + 1 * κ.val = κ.val; rw [e2]; omega
  | ⟨1, _⟩ => show win0_1.index t 1 * 16 + 1 * q.val = q.val; rw [e3]; omega

/-- What point t writes back is its block of rows of x · Wg: entry (r, q) of the block is the inner product of
    row 5000·t + r of x with column q of Wg, which is entry (5000·t + r, q) of x · Wg. -/
theorem flushed_eq (c : Dev nD) (t : Fin cfg0.N) :
    (dat0 (F := Ideal) V c).flushed 2 t
      = ((cfg0.win 2).blk t).view.read (Elt Ideal) (projArr (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts t
  funext j
  obtain ⟨r, q, rfl⟩ : ∃ (r : Fin 5000) (q : Fin 16), j = ix2 r q := ⟨j 0, j 1, eq_ix2 j⟩
  refine (Body.proj_pay_apply _ _ r q).trans ?_
  rw [View.read_apply]
  have hN : cfg0.N = 20 := N_0
  have hp : 5000 * t.val + r.val < 100000 := by have := t.isLt; have := r.isLt; omega
  have hi : ((View.whole main_v0).slice ((win0 2).rect t)).emb (ix2 r q)
      = ix2 (⟨5000 * t.val + r.val, hp⟩ : Fin 100000) q := by
    funext a; apply Fin.ext
    match a with
    | ⟨0, _⟩ => show win0_2.index t 0 * 5000 + 1 * r.val = 5000 * t.val + r.val; rw [e4]; omega
    | ⟨1, _⟩ => show win0_2.index t 1 * 16 + 1 * q.val = q.val; rw [e5]; omega
  show _ = projArr (V c main_arg0) (V c main_arg2) (((View.whole main_v0).slice ((win0 2).rect t)).emb (ix2 r q))
  rw [hi, projArr_apply]
  exact Finset.sum_congr rfl fun κ _ => by
    rw [xblk_apply V c t r κ ⟨5000 * t.val + r.val, hp⟩ rfl, wblk_apply V c t κ q]

/-- Every entry of the array lies in the block of the point its row falls in: row ρ in block ρ / 5000. -/
theorem cover (i : S100000x16.Idx) :
    ∃ t : Fin cfg0.N, (cfg0.win 2).flush t = true ∧ i ∈ ((cfg0.win 2).blk t).view.set := by
  have hN : cfg0.N = 20 := N_0
  have h0 : (i 0).val < 100000 := (i 0).isLt
  have h1 : (i 1).val < 16 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * win0_2.size 0 ≤ (i 0 : Nat)
      ∧ (i 0 : Nat) < win0_2.index t 0 * win0_2.size 0 + win0_2.xsize (grid0.coords t) 0
    rw [e4, ht]
    show (i 0).val / 5000 * 5000 ≤ (i 0).val ∧ (i 0).val < (i 0).val / 5000 * 5000 + 5000
    omega
  | ⟨1, _⟩ =>
    show win0_2.index t 1 * win0_2.size 1 ≤ (i 1 : Nat)
      ∧ (i 1 : Nat) < win0_2.index t 1 * win0_2.size 1 + win0_2.xsize (grid0.coords t) 1
    rw [e5]
    show 0 * 16 ≤ (i 1).val ∧ (i 1).val < 0 * 16 + 16
    omega

/-- The array region 0 writes ends holding x · Wg of the arrays the region finds as x and Wg. -/
theorem proj_final (c : Dev nD) :
    (dat0 (F := Ideal) V c).arrAt 2 cfg0.N = projArr (V c main_arg0) (V c main_arg2) :=
  (dat0 (F := Ideal) V c).arrAt_eq_of_cover 2 (projArr (V c main_arg0) (V c main_arg2))
    (fun t _ => flushed_eq V c t) cover

end Cert.KernelIdeal.ProjArr

end
-- ==== Proof.KernelHeadArr.lean ====
/-
  The second kernel region as a whole: after its ten grid points the array it writes holds the head of every node.
  Point t takes rows 10000·t … 10000·t + 9999 of the aggregated features and the whole of each small operand (the
  biases as one-row matrices, the three weight matrices), and writes rows 10000·t … of the result; row r of what it
  writes is the head of node 10000·t + r, and the ten row blocks tile the 100000 rows.
-/
import proofs.«169865_j38371237823055_1_alg».proof.Proof.Gen.KernelIdeal.Frame
import proofs.«169865_j38371237823055_1_alg».proof.Proof.KernelBody
import Idealize.ShloMosaic.Lib.Pipeline.Value

set_option maxRecDepth 16384

noncomputable section

namespace Cert.KernelIdeal.HeadArr

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The zero offsets of a rank-two block, as the constant function. -/
theorem hz : (![0, 0] : Fin 2 → Nat) = fun _ => 0 := funext fun a => by fin_cases a <;> rfl

/-- The block indices at point t: the aggregated features and the result are at row block t, column block 0; each
    small operand is at block (0, 0), its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The block of the aggregated features at point t is rows 10000·t … 10000·t + 9999 of the array: its entry (r, l)
    is the array's entry (ρ, l) with ρ = 10000·t + r. -/
theorem iblk0_apply (c : Dev nD) (t : Fin cfg1.N) (r : Fin 10000) (l : Fin 16) (ρ : Fin 100000)
    (hρ : ρ.val = 10000 * t.val + r.val) :
    (iblk1 V c 0 t : Vec Ideal S10000x16 .f32) (ix2 r l) = (V c main_v44 : S100000x16.Idx → EReal) (ix2 ρ l) := by
  obtain ⟨e0, e1, -⟩ := idx_facts t
  unfold iblk1
  rw [View.read_apply]
  show V c main_v44 _ = V c main_v44 _
  congr 1
  funext a
  apply Fin.ext
  match a with
  | ⟨0, _⟩ => show win1_0.index t 0 * 10000 + 1 * r.val = ρ.val; rw [e0, hρ]; omega
  | ⟨1, _⟩ => show win1_0.index t 1 * 16 + 1 * l.val = l.val; rw [e1]; omega

/-- The convolution's bias row is held whole at every point. -/
theorem iblk1_apply (c : Dev nD) (t : Fin cfg1.N) (p : Fin 1) (q : Fin 16) :
    (iblk1 V c 1 t : Vec Ideal S1x16 .f32) (ix2 p q) = (V c main_v45 : S1x16.Idx → EReal) (ix2 p q) := by
  have e := idx_facts t
  unfold iblk1
  rw [View.read_apply]
  show V c main_v45 _ = V c main_v45 _
  congr 1
  funext a
  apply Fin.ext
  match a with
  | ⟨0, _⟩ => show win1_1.index t 0 * 1 + 1 * p.val = p.val; omega
  | ⟨1, _⟩ => show win1_1.index t 1 * 16 + 1 * q.val = q.val; omega

/-- The first layer's weights are held whole at every point. -/
theorem iblk2_apply (c : Dev nD) (t : Fin cfg1.N) (p : Fin 16) (q : Fin 16) :
    (iblk1 V c 2 t : Vec Ideal S16x16 .f32) (ix2 p q) = (V c main_arg4 : S16x16.Idx → EReal) (ix2 p q) := by
  have e := idx_facts t
  unfold iblk1
  rw [View.read_apply]
  show V c main_arg4 _ = V c main_arg4 _
  congr 1
  funext a
  apply Fin.ext
  match a with
  | ⟨0, _⟩ => show win1_2.index t 0 * 16 + 1 * p.val = p.val; omega
  | ⟨1, _⟩ => show win1_2.index t 1 * 16 + 1 * q.val = q.val; omega

/-- The first layer's bias row is held whole at every point. -/
theorem iblk3_apply (c : Dev nD) (t : Fin cfg1.N) (p : Fin 1) (q : Fin 16) :
    (iblk1 V c 3 t : Vec Ideal S1x16 .f32) (ix2 p q) = (V c main_v46 : S1x16.Idx → EReal) (ix2 p q) := by
  have e := idx_facts t
  unfold iblk1
  rw [View.read_apply]
  show V c main_v46 _ = V c main_v46 _
  congr 1
  funext a
  apply Fin.ext
  match a with
  | ⟨0, _⟩ => show win1_3.index t 0 * 1 + 1 * p.val = p.val; omega
  | ⟨1, _⟩ => show win1_3.index t 1 * 16 + 1 * q.val = q.val; omega

/-- The second layer's weights are held whole at every point. -/
theorem iblk4_apply (c : Dev nD) (t : Fin cfg1.N) (p : Fin 16) (q : Fin 32) :
    (iblk1 V c 4 t : Vec Ideal S16x32 .f32) (ix2 p q) = (V c main_arg6 : S16x32.Idx → EReal) (ix2 p q) := by
  have e := idx_facts t
  unfold iblk1
  rw [View.read_apply]
  show V c main_arg6 _ = V c main_arg6 _
  congr 1
  funext a
  apply Fin.ext
  match a with
  | ⟨0, _⟩ => show win1_4.index t 0 * 16 + 1 * p.val = p.val; omega
  | ⟨1, _⟩ => show win1_4.index t 1 * 32 + 1 * q.val = q.val; omega

/-- The second layer's bias row is held whole at every point. -/
theorem iblk5_apply (c : Dev nD) (t : Fin cfg1.N) (p : Fin 1) (q : Fin 32) :
    (iblk1 V c 5 t : Vec Ideal S1x32 .f32) (ix2 p q) = (V c main_v47 : S1x32.Idx → EReal) (ix2 p q) := by
  have e := idx_facts t
  unfold iblk1
  rw [View.read_apply]
  show V c main_v47 _ = V c main_v47 _
  congr 1
  funext a
  apply Fin.ext
  match a with
  | ⟨0, _⟩ => show win1_5.index t 0 * 1 + 1 * p.val = p.val; omega
  | ⟨1, _⟩ => show win1_5.index t 1 * 32 + 1 * q.val = q.val; omega

/-- The third layer's weights are held whole at every point. -/
theorem iblk6_apply (c : Dev nD) (t : Fin cfg1.N) (p : Fin 32) (q : Fin 1) :
    (iblk1 V c 6 t : Vec Ideal S32x1 .f32) (ix2 p q) = (V c main_arg8 : S32x1.Idx → EReal) (ix2 p q) := by
  have e := idx_facts t
  unfold iblk1
  rw [View.read_apply]
  show V c main_arg8 _ = V c main_arg8 _
  congr 1
  funext a
  apply Fin.ext
  match a with
  | ⟨0, _⟩ => show win1_6.index t 0 * 32 + 1 * p.val = p.val; omega
  | ⟨1, _⟩ => show win1_6.index t 1 * 1 + 1 * q.val = q.val; omega

/-- The third layer's bias is held whole at every point. -/
theorem iblk7_apply (c : Dev nD) (t : Fin cfg1.N) (p : Fin 1) (q : Fin 1) :
    (iblk1 V c 7 t : Vec Ideal S1x1 .f32) (ix2 p q) = (V c main_v48 : S1x1.Idx → EReal) (ix2 p q) := by
  have e := idx_facts t
  unfold iblk1
  rw [View.read_apply]
  show V c main_v48 _ = V c main_v48 _
  congr 1
  funext a
  apply Fin.ext
  match a with
  | ⟨0, _⟩ => show win1_7.index t 0 * 1 + 1 * p.val = p.val; omega
  | ⟨1, _⟩ => show win1_7.index t 1 * 1 + 1 * q.val = q.val; omega

/-- The head of every node, of the arrays the region finds as its operands. -/
abbrev G (c : Dev nD) : FVec Ideal ⟨2, ![100000, 1]⟩ .f32 :=
  headArr (V c main_v44)
    (fun l => (V c main_v45 : S1x16.Idx → EReal) (ix2 (⟨0, Nat.one_pos⟩ : Fin 1) l))
    (fun l i => (V c main_arg4 : S16x16.Idx → EReal) (ix2 l i))
    (fun i => (V c main_v46 : S1x16.Idx → EReal) (ix2 (⟨0, Nat.one_pos⟩ : Fin 1) i))
    (fun i j => (V c main_arg6 : S16x32.Idx → EReal) (ix2 i j))
    (fun j => (V c main_v47 : S1x32.Idx → EReal) (ix2 (⟨0, Nat.one_pos⟩ : Fin 1) j))
    (fun j => (V c main_arg8 : S32x1.Idx → EReal) (ix2 j (⟨0, Nat.one_pos⟩ : Fin 1)))
    ((V c main_v48 : S1x1.Idx → EReal) (ix2 (⟨0, Nat.one_pos⟩ : Fin 1) (⟨0, Nat.one_pos⟩ : Fin 1)))

/-- What point t writes back is its block of rows of the head of every node. -/
theorem flushed_eq (c : Dev nD) (t : Fin cfg1.N) :
    (dat1 (F := Ideal) V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S10000x16) hz, View.ld_unit_zero (S := S1x16) hz, View.ld_unit_zero (S := S16x16) hz,
    View.ld_unit_zero (S := S16x32) hz, View.ld_unit_zero (S := S1x32) hz, View.ld_unit_zero (S := S32x1) hz,
    View.ld_unit_zero (S := S1x1) hz]
  funext j
  obtain ⟨p, q, rfl⟩ : ∃ (p : Fin 10000) (q : Fin 1), j = ix2 p q := ⟨j 0, j 1, eq_ix2 j⟩
  obtain rfl : q = (⟨0, Nat.one_pos⟩ : Fin 1) := Subsingleton.elim _ _
  have ht : t.val < 10 := (show t.val < grid1.N from t.isLt).trans_eq N_1
  refine (Body.head_pay_apply _ _ _ _ _ _ _ _ p).trans ?_
  rw [View.read_apply]
  obtain ⟨ρ, hρ⟩ : ∃ ρ : Fin 100000, ρ.val = 10000 * t.val + p.val := ⟨⟨10000 * t.val + p.val, by have := p.isLt; omega⟩, rfl⟩
  have e := idx_facts t
  have hemb : ((View.whole main_v49).slice ((win1 8).rect t)).emb (ix2 p (⟨0, Nat.one_pos⟩ : Fin 1))
      = (ix2 ρ (⟨0, Nat.one_pos⟩ : Fin 1) : S100000x1.Idx) := by
    funext a
    apply Fin.ext
    match a with
    | ⟨0, _⟩ => show win1_8.index t 0 * 10000 + 1 * p.val = ρ.val; omega
    | ⟨1, _⟩ => show win1_8.index t 1 * 1 + 1 * 0 = 0; omega
  show _ = G V c (((View.whole main_v49).slice ((win1 8).rect t)).emb (ix2 p (⟨0, Nat.one_pos⟩ : Fin 1)))
  rw [hemb]
  unfold G
  rw [headArr_apply]
  simp only [iblk0_apply V c t p _ ρ hρ, iblk1_apply, iblk2_apply, iblk3_apply, iblk4_apply, iblk5_apply, iblk6_apply,
    iblk7_apply]

/-- Every row of the result lies in the block of the point that is the row's quotient by 10000, and every point writes back. -/
theorem cover (i : S100000x1.Idx) :
    ∃ t : Fin cfg1.N, (cfg1.win 8).flush t = true ∧ i ∈ ((cfg1.win 8).blk t).view.set := by
  have hi0 : (i 0).val < 100000 := idx2_lt0 i
  have hi1 : (i 1).val < 1 := idx2_lt1 i
  obtain ⟨t, ht⟩ : ∃ t : Fin cfg1.N, t.val = (i 0).val / 10000 :=
    ⟨⟨(i 0).val / 10000, by show _ < grid1.N; rw [N_1]; omega⟩, rfl⟩
  refine ⟨t, flush1_8 t, ?_⟩
  have e := idx_facts t
  show i ∈ ((View.whole main_v49).slice (win1_8.rect t)).set
  rw [View.set_slice_whole, Rect.mem_set_unit]
  intro a
  match a with
  | ⟨0, _⟩ =>
    show win1_8.index t 0 * 10000 ≤ (i 0 : Nat) ∧ (i 0 : Nat) < win1_8.index t 0 * 10000 + 10000
    omega
  | ⟨1, _⟩ =>
    show win1_8.index t 1 * 1 ≤ (i 1 : Nat) ∧ (i 1 : Nat) < win1_8.index t 1 * 1 + 1
    omega

/-- The array region 1 writes ends holding the head of every node, of the arrays the region finds as its operands. -/
theorem head_final (c : Dev nD) :
    (dat1 (F := Ideal) V c).arrAt 8 cfg1.N
      = headArr (V c main_v44)
          (fun l => (V c main_v45 : S1x16.Idx → EReal) (ix2 (⟨0, Nat.one_pos⟩ : Fin 1) l))
          (fun l i => (V c main_arg4 : S16x16.Idx → EReal) (ix2 l i))
          (fun i => (V c main_v46 : S1x16.Idx → EReal) (ix2 (⟨0, Nat.one_pos⟩ : Fin 1) i))
          (fun i j => (V c main_arg6 : S16x32.Idx → EReal) (ix2 i j))
          (fun j => (V c main_v47 : S1x32.Idx → EReal) (ix2 (⟨0, Nat.one_pos⟩ : Fin 1) j))
          (fun j => (V c main_arg8 : S32x1.Idx → EReal) (ix2 j (⟨0, Nat.one_pos⟩ : Fin 1)))
          ((V c main_v48 : S1x1.Idx → EReal) (ix2 (⟨0, Nat.one_pos⟩ : Fin 1) (⟨0, Nat.one_pos⟩ : Fin 1))) :=
  (dat1 (F := Ideal) V c).arrAt_eq_of_cover 8 (G V c) (fun t _ => flushed_eq V c t) cover

end Cert.KernelIdeal.HeadArr

end
-- ==== Proof.KernelValue.lean ====
/-
  The kernel program's result as mathematics: the array its second region writes holds the network's output of the
  launch contents of the ten arguments. The first region leaves x · Wg, the host operations between the regions are
  the graph aggregation of it along the edge list, the second region computes the head of every node from the
  aggregated features, the reshaped biases and the weights.
-/
import proofs.«169865_j38371237823055_1_alg».proof.Proof.KernelRun
import proofs.«169865_j38371237823055_1_alg».proof.Proof.KernelHost
import proofs.«169865_j38371237823055_1_alg».proof.Proof.KernelProjArr
import proofs.«169865_j38371237823055_1_alg».proof.Proof.KernelHeadArr
import proofs.«169865_j38371237823055_1_alg».proof.Proof.Net

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Host Cert.Gcn

variable (m : (ℓ : Loc nD τ sig) → Buf (Elt Ideal) ℓ) (ρ : Dev nD → PrngReg)

/-- What the first region leaves as projected features: x · Wg of the launch contents. -/
theorem xw_value (c : Dev nD) :
    W1 m ρ c (Proc.devRef .tc main_v0) = projArr (m ((c : Thread nD τ).loc main_arg0)) (m ((c : Thread nD τ).loc main_arg2)) :=
  (W1_arr m ρ c 2).trans (Cert.KernelIdeal.ProjArr.proj_final (V0 m ρ) c)

/-- What the second region finds as aggregated features. -/
theorem agg_value (c : Dev nD) :
    V4 m ρ c main_v44 = Cert.ReferenceIdeal.RefValue.aggOf (F := Ideal) (projArr (m ((c : Thread nD τ).loc main_arg0)) (m ((c : Thread nD τ).loc main_arg2))) (m ((c : Thread nD τ).loc main_arg1)) := by
  refine (W4_agg m ρ c).trans ?_
  rw [xw_value, edges_eq]

/-- The result array after the run is the network's output of the arguments. -/
theorem result_value (c : Dev nD) :
    W5 m ρ c (Proc.devRef .tc main_v49)
      = net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 8).trans ((Cert.KernelIdeal.HeadArr.head_final (V4 m ρ) c).trans ?_)
  unfold net
  rw [agg_value, V4_W1, V4_W2, V4_W3]
  congr 1
  · exact funext (V4_bg m ρ c)
  · exact funext (V4_b1 m ρ c)
  · exact funext (V4_b2 m ρ c)
  · exact V4_b3 m ρ c (⟨0, Nat.one_pos⟩ : Fin 1)

end Cert.KernelIdeal.Result

end
-- ==== Proof.lean ====
/-
  A graph convolution followed by a three-layer head, computed two ways, gives the same numbers over the extended reals.

  The kernel program projects the node features with a blocked matrix product (twenty blocks of 5000 rows; the
  operands narrowed to bf16, which is the identity here), aggregates along the edges with the host's own gather and
  scatter-add, and finishes with a fused head on ten blocks of 10000 nodes: bias, rectifier, three small matrix
  products with their biases, the logistic function. The reference does the same with whole-array operations and
  spells the logistic function as 1 / (1 + e^(-z)).

  Both results are ONE function of the ten arguments (Proof/Net.lean's `net`): x · Wg entry by entry is the exact sum
  over the 512 contracted positions on both sides (Proof/KernelProjArr.lean, Proof/RefValue.lean); the aggregation is
  the same chain of host operations applied to it (Proof/KernelHost.lean); the head of a node is the same expression
  of its sixteen aggregated features whether it is read off a block or off the whole array (Proof/KernelBody.lean,
  Proof/KernelHeadArr.lean, Proof/RefValue.lean); and the library's logistic function is by definition the quotient
  the reference writes out. No step re-associates a sum or moves a factor across one, so the inputs' finiteness is not used.

  The three programs' runs: the kernel programs' are the launch over their segments (host stretches and the two
  pipelined regions); the reference's is its straight line of host operations. The idealization rewrote nothing, so
  there is nothing to preserve beyond the text itself.
-/
import proofs.«169865_j38371237823055_1_alg».proof.Defs
import proofs.«169865_j38371237823055_1_alg».proof.Proof.Gen.Kernel
import proofs.«169865_j38371237823055_1_alg».proof.Proof.Gen.Kernel.Skeleton
import proofs.«169865_j38371237823055_1_alg».proof.Proof.Gen.Kernel.Launch
import proofs.«169865_j38371237823055_1_alg».proof.Proof.Gen.Kernel.Points
import proofs.«169865_j38371237823055_1_alg».proof.Proof.Gen.Kernel.Frame
import proofs.«169865_j38371237823055_1_alg».proof.Proof.Gen.KernelIdeal
import proofs.«169865_j38371237823055_1_alg».proof.Proof.Gen.KernelIdeal.Skeleton
import proofs.«169865_j38371237823055_1_alg».proof.Proof.Gen.KernelIdeal.Launch
import proofs.«169865_j38371237823055_1_alg».proof.Proof.Gen.KernelIdeal.Points
import proofs.«169865_j38371237823055_1_alg».proof.Proof.Gen.KernelIdeal.Frame
import proofs.«169865_j38371237823055_1_alg».proof.Proof.Gen.ReferenceIdeal
import proofs.«169865_j38371237823055_1_alg».proof.Proof.Gen.Pre_finite_inputs
import proofs.«169865_j38371237823055_1_alg».proof.Proof.RefRun
import proofs.«169865_j38371237823055_1_alg».proof.Proof.Net
import proofs.«169865_j38371237823055_1_alg».proof.Proof.KernelRun
import proofs.«169865_j38371237823055_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel :=
  fun m ρ _ => Cert.Kernel.Gen.frame m ρ

/-- So does its reading over the extended reals. -/
theorem frame_kernel_ideal : Cert.frame_KernelIdeal :=
  fun m ρ _ => Cert.KernelIdeal.Gen.frame m ρ

/-- The reference runs and leaves its arguments alone: its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the arguments both programs end with the network's output of those arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Result.result_value m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.Gcn.ref_value, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
